-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x64x2048 : S_.BroadcastsInDim S2x16x64x2048 (![] : Fin 0 → Fin S2x16x64x2048.rank)
  reducesTo_S2x16x64x2048_S_d0_1_2_3 : S2x16x64x2048.ReducesTo [0, 1, 2, 3] S_
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_

variable [Facts]

def fn_part1 {F : FTy → Type} [FloatOps F] (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x64x2048 .f32) (main_arg2 : FVec F S2x16x2048x64 .f32) (main_arg3 : FVec F S2x16x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x64x2048 .f32 := Host.absf main_arg1
  let main_cst_0 : FVec F S_ .f32 := constant S_ .f32 0x7F800000#32
  let main_v5 : FVec F S2x16x64x2048 .f32 := broadcastInDim S2x16x64x2048 ![] bcast_S_S2x16x64x2048 main_cst_0
  let main_v6 : IVec S2x16x64x2048 1 := cmpf .olt main_v4 main_v5
  let main_c_1 : IVec S_ 1 := constantI S_ 1 1#1
  let main_v7 : IVec S_ 1 := (fun x v => Host.reduce IntOp.andi x v reducesTo_S2x16x64x2048_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x2048x2048 .f32 := Host.absf main_arg3
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_v13 main_v16
-- ==== Kernel.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S1x1x512x64 : Shape := ⟨4, ![1, 1, 512, 64]⟩
abbrev S1x1x64x2048 : Shape := ⟨4, ![1, 1, 64, 2048]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S2048x64 : Shape := ⟨2, ![2048, 64]⟩

abbrev nBuf : Space → Nat
  | .hbm => 7
  | .vmem => 14
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S2x16x2048x2048, .f32⟩
  | .hbm, ⟨4, _⟩ => ⟨S2x16x2048x64, .f32⟩
  | .hbm, ⟨5, _⟩ => ⟨S2x16x2048x2048, .f32⟩
  | .hbm, ⟨6, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x64x2048, .f32⟩
  | .local _ .vmem, ⟨3, _⟩ => ⟨S1x1x64x2048, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | .local _ .vmem, ⟨12, _⟩ => ⟨S1x1x512x2048, .f32⟩
  | .local _ .vmem, ⟨13, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  reduces_S512x2048_S512 : S512x2048.Reduces [1] S512
  shapeCasts_S512_S512x1 : S512.ShapeCasts S512x1
  broadcasts_S512x1_S512x2048 : S512x1.Broadcasts S512x2048
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2048.size a ≤ S2x16x64x2048.size a
  hwx0_1 : ∀ i : grid0.Coords, EltTy.bits .f32 = 32 ∨ (Rect.block (s := S2x16x64x2048) S1x1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x16x2048x2048.size a
  hwx0_3 : ∀ i : grid0.Coords, EltTy.bits .f32 = 32 ∨ (Rect.block (s := S2x16x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x2048.size a ≤ S2x16x2048x2048.size a
  hwx0_6 : ∀ i : grid0.Coords, EltTy.bits .f32 = 32 ∨ (Rect.block (s := S2x16x2048x2048) S1x1x512x2048.size (cc0_transform_6 i) (hinb0_6 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S2x16x2048x2048, .f32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x16x2048x2048, .f32⟩
  | .hbm, ⟨9, _⟩ => ⟨S_, .f32⟩
  | .hbm, ⟨10, _⟩ => ⟨S2x16x2048, .f32⟩
  | .hbm, ⟨11, _⟩ => ⟨S_, .f32⟩
  | .hbm, ⟨12, _⟩ => ⟨S2x16x2048, .f32⟩
  | .hbm, ⟨13, _⟩ => ⟨S2x16x2048, .f32⟩
  | .hbm, ⟨14, _⟩ => ⟨S2x16x2048x1, .f32⟩
  | .hbm, ⟨15, _⟩ => ⟨S2x16x2048x2048, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x64x2048_S2x16x2048x2048_3_2_2_3_01_01_wf : DotDims.WF S2x16x2048x64 S2x16x64x2048 S2x16x2048x2048 [3] [2] [2] [3] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x64x2048_S2x16x2048x2048_3_2_2_3_01_01 : DotDims S2x16x2048x64 S2x16x64x2048 S2x16x2048x2048 where
  lhsContracting := [3]
  rhsContracting := [2]
  lhsNonContracting := [2]
  rhsNonContracting := [3]
  lhsBatch := [0, 1]
  rhsBatch := [0, 1]
  wf := dot_S2x16x2048x64_S2x16x64x2048_S2x16x2048x2048_3_2_2_3_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Attention.lean ====
/-
  Scaled dot-product attention with an additive bias, on the extended reals, index by index.

  For a batch `b`, a head `h`, a query row `r` and a key column `s`:
    score b h r s   = (∑ d, q[b,h,r,d] · k[b,h,d,s]) · c + bias[b,h,r,s],   `c` the value of the word 0x3E000000 (one eighth),
    top b h r       = the maximum over `s` of `score b h r s`, folded from the value of the word 0xFF800000 (−∞),
    unnorm b h r s  = exp (score b h r s − top b h r),
    mass b h r      = ∑ s, unnorm b h r s,
    weight b h r s  = unnorm b h r s / mass b h r,
    mix b h r d     = ∑ s, weight b h r s · v[b,h,s,d].
  The three results are the arrays of `mix`, `weight` and `score`. Both constants stay as the words they are printed
  with: the same word stands on both sides of every comparison, so neither is ever evaluated.

  No step below uses that an entry is finite: the two programs apply the same operations to the same operands in the same
  arrangement, and the one extra operation on one side — a maximum with the fold's own starting value — is absorbed by
  the order alone (`max_start_fold`).
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- Queries and values: batch × head × position × feature. -/
abbrev QShape : Shape := ⟨4, ![2, 16, 2048, 64]⟩
/-- Keys, stored transposed: batch × head × feature × position. -/
abbrev KShape : Shape := ⟨4, ![2, 16, 64, 2048]⟩
/-- Scores, weights and the bias: batch × head × query position × key position. -/
abbrev PShape : Shape := ⟨4, ![2, 16, 2048, 2048]⟩

/-- The scale on the products: the value of the word both programs print (one eighth). -/
def scale : EReal := Ideal.ofBits .f32 0x3E000000#32
/-- Where both maxima start: the value of the word both programs print (−∞). -/
def start : EReal := Ideal.ofBits .f32 0xFF800000#32

section
variable (q : QShape.Idx → EReal) (k : KShape.Idx → EReal) (v : QShape.Idx → EReal) (bias : PShape.Idx → EReal)

/-- The scaled product of query row `r` with key column `s`, plus the bias. -/
def score (b : Fin 2) (h : Fin 16) (r s : Fin 2048) : EReal :=
  (∑ d : Fin 64, q (ix4 b h r d) * k (ix4 b h d s)) * scale + bias (ix4 b h r s)

/-- The largest score of query row `r`. -/
def top (b : Fin 2) (h : Fin 16) (r : Fin 2048) : EReal :=
  (Finset.univ : Finset (Fin 2048)).fold max start (fun s => score q k bias b h r s)

/-- The exponential of a score's distance below its row's largest. -/
def unnorm (b : Fin 2) (h : Fin 16) (r s : Fin 2048) : EReal :=
  Ideal.exp (score q k bias b h r s - top q k bias b h r)

/-- The total of a row's exponentials. -/
def mass (b : Fin 2) (h : Fin 16) (r : Fin 2048) : EReal :=
  ∑ s : Fin 2048, unnorm q k bias b h r s

/-- The softmax weight of key `s` for query `r`. -/
def weight (b : Fin 2) (h : Fin 16) (r s : Fin 2048) : EReal :=
  Ideal.div (unnorm q k bias b h r s) (mass q k bias b h r)

/-- The weighted mixture of the value rows. -/
def mix (b : Fin 2) (h : Fin 16) (r : Fin 2048) (d : Fin 64) : EReal :=
  ∑ s : Fin 2048, weight q k bias b h r s * v (ix4 b h s d)

/-- The array of scores. -/
def scores : PShape.Idx → EReal := fun i => score q k bias (i 0) (i 1) (i 2) (i 3)
/-- The array of weights. -/
def weights : PShape.Idx → EReal := fun i => weight q k bias (i 0) (i 1) (i 2) (i 3)
/-- The array of mixtures. -/
def output : QShape.Idx → EReal := fun i => mix q k v bias (i 0) (i 1) (i 2) (i 3)

theorem scores_ix4 (b : Fin 2) (h : Fin 16) (r s : Fin 2048) : scores q k bias (ix4 b h r s) = score q k bias b h r s := rfl
theorem weights_ix4 (b : Fin 2) (h : Fin 16) (r s : Fin 2048) : weights q k bias (ix4 b h r s) = weight q k bias b h r s := rfl
theorem output_ix4 (b : Fin 2) (h : Fin 16) (r : Fin 2048) (d : Fin 64) : output q k v bias (ix4 b h r d) = mix q k v bias b h r d := rfl

end

/-- A maximum folded from `a` is at least `a`, so a further maximum with `a` changes nothing. -/
theorem max_start_fold {ι : Type*} (s : Finset ι) (a : EReal) (f : ι → EReal) :
    max a (s.fold max a f) = s.fold max a f :=
  max_eq_right ((Finset.le_fold_max (s := s) (b := a) (f := f) (c := a)).2 (Or.inl le_rfl))

end Cert.Attention

end
-- ==== Proof.RefAttention.lean ====
/-
  The reference computes attention: each of its stages, read at an index, is the matching quantity of
  `Cert.Attention`.

  The scaled products plus the bias are `score`; the row maximum — a fold of `max` along the key axis from −∞, and then one
  more maximum with −∞, which the order absorbs — is `top`; the exponentials of the differences are `unnorm`; their sum
  along the key axis, started from zero, is `mass`; the quotient is `weight`; and the product with the values, contracted
  along the key axis, is `mix`.
-/
import proofs.«422906_j22634477650274_3_alg».proof.Proof.Gen.ReferenceIdeal.Read
import proofs.«422906_j22634477650274_3_alg».proof.Proof.Attention

noncomputable section

namespace Cert.RefAttention

open Cert.ReferenceIdeal Cert.ReferenceIdeal.Gen Cert.ReferenceIdeal.Read Cert.Attention
open Idealize.ShloMosaic Idealize.ShloMosaic.ValueIdx

variable (q : S2x16x2048x64.Idx → EReal) (k : S2x16x64x2048.Idx → EReal) (v : S2x16x2048x64.Idx → EReal)
  (bias : S2x16x2048x2048.Idx → EReal)

/-- The scaled products plus the bias are the scores. -/
theorem scores_eq : val_main_v3 (F := Ideal) q k bias = scores q k bias := by
  funext i
  rw [val_main_v3_apply, val_main_v2_apply, val_main_v0_apply, val_main_v1_apply, val_main_cst_apply]
  have hl : ∀ d : Fin 64, lidx_main_v0 i d = ix4 (i 0) (i 1) (i 2) d := fun d => funext fun a => Fin.ext (by
    match a with | ⟨0, _⟩ => rfl | ⟨1, _⟩ => rfl | ⟨2, _⟩ => rfl | ⟨3, _⟩ => rfl)
  have hr : ∀ d : Fin 64, ridx_main_v0 i d = ix4 (i 0) (i 1) d (i 3) := fun d => funext fun a => Fin.ext (by
    match a with | ⟨0, _⟩ => rfl | ⟨1, _⟩ => rfl | ⟨2, _⟩ => rfl | ⟨3, _⟩ => rfl)
  simp only [hl, hr]
  show _ = score q k bias (i 0) (i 1) (i 2) (i 3)
  unfold score scale
  exact congrArg (fun z => (∑ d : Fin 64, q (ix4 (i 0) (i 1) (i 2) d) * k (ix4 (i 0) (i 1) d (i 3)))
    * Ideal.ofBits .f32 0x3E000000#32 + z) (congrArg bias (eq_ix4 i))

/-- A row index with the key position inserted on the last axis: the index the reductions along that axis visit. -/
theorem lift_key (h : S2x16x2048x2048.Reduces [3] S2x16x2048) (j : S2x16x2048.Idx) (s : Fin 2048) :
    h.lift j s = ix4 (j 0) (j 1) (j 2) s :=
  funext fun a => Fin.ext (by match a with | ⟨0, _⟩ => rfl | ⟨1, _⟩ => rfl | ⟨2, _⟩ => rfl | ⟨3, _⟩ => rfl)

/-- The row maximum: the fold of `max` along the key axis from −∞, and one more maximum with −∞, which changes nothing. -/
theorem top_eq (j : S2x16x2048.Idx) : val_main_v6 (F := Ideal) q k bias j = top q k bias (j 0) (j 1) (j 2) := by
  rw [val_main_v6_apply, val_main_v5_apply, val_main_cst_1_apply]
  unfold val_main_v4
  rw [Host.reduce_eq_fold_single FloatOps.maximumf _ _ reducesTo_S2x16x2048x2048_S2x16x2048_d3 (by decide) h_S_ j,
    scores_eq]
  have hf : (scores q k bias ∘ (by decide : S2x16x2048x2048.Reduces [3] S2x16x2048).lift j)
      = fun s => score q k bias (j 0) (j 1) (j 2) s :=
    funext fun s => congrArg (scores q k bias) (lift_key _ j s)
  rw [hf]
  exact max_start_fold _ _ _

/-- The exponential of a score's distance below its row's maximum. -/
theorem unnorm_eq (i : S2x16x2048x2048.Idx) :
    val_main_v10 (F := Ideal) q k bias i = unnorm q k bias (i 0) (i 1) (i 2) (i 3) := by
  rw [val_main_v10_apply, val_main_v9_apply, val_main_v8_apply, val_main_v7_apply, top_eq, scores_eq]
  rfl

/-- The sum of a row's exponentials, started from zero. -/
theorem mass_eq (j : S2x16x2048.Idx) : val_main_v11 (F := Ideal) q k bias j = mass q k bias (j 0) (j 1) (j 2) := by
  rw [val_main_v11_apply, val_main_cst_2_apply]
  simp only [unnorm_eq]
  rw [Ideal.ofBits_def, Ideal.ofBits_zero_f32, zero_add]
  rfl

/-- The quotients are the weights. -/
theorem weights_eq : val_main_v14 (F := Ideal) q k bias = weights q k bias := by
  funext i
  rw [val_main_v14_apply, val_main_v13_apply, val_main_v12_apply, mass_eq, unnorm_eq]
  rfl

/-- The weights contracted with the values along the key axis are the mixtures. -/
theorem output_eq : val_main_v15 (F := Ideal) q k v bias = output q k v bias := by
  funext i
  rw [val_main_v15_apply, weights_eq]
  have hl : ∀ s : Fin 2048, lidx_main_v15 i s = ix4 (i 0) (i 1) (i 2) s := fun s => funext fun a => Fin.ext (by
    match a with | ⟨0, _⟩ => rfl | ⟨1, _⟩ => rfl | ⟨2, _⟩ => rfl | ⟨3, _⟩ => rfl)
  have hr : ∀ s : Fin 2048, ridx_main_v15 i s = ix4 (i 0) (i 1) s (i 3) := fun s => funext fun a => Fin.ext (by
    match a with | ⟨0, _⟩ => rfl | ⟨1, _⟩ => rfl | ⟨2, _⟩ => rfl | ⟨3, _⟩ => rfl)
  simp only [hl, hr]
  rfl

end Cert.RefAttention

end
-- ==== Proof.KernelBlock.lean ====
/-
  One block of the attention kernel, read at an index.

  A grid point holds 512 query rows of one (batch, head) pair, all 2048 key columns and all 2048 value rows. Over
  arbitrary vectors of the loaded shapes this module reads the body's arithmetic entry by entry: the two unit axes of a
  loaded block come and go by reshapes that keep the row-major position; a matrix product into a zero accumulator is the
  plain sum over the contracted axis; a reduction along the key axis is a fold (the maximum) or a sum over that axis's
  coordinates; and a column of per-row values broadcast back along the key axis is that row's value.
-/
import proofs.«422906_j22634477650274_3_alg».proof.Proof.Gen.KernelIdeal.Skeleton
import proofs.«422906_j22634477650274_3_alg».proof.Proof.Attention
import Idealize.ShloMosaic.Lib.Pipeline.Value
import Idealize.ShloMosaic.Lib.ValueIdx
import Idealize.ShloMosaic.PureOps.Ideal.Laws

noncomputable section

namespace Cert.KernelBlock

open Cert.KernelIdeal Cert.KernelIdeal.Gen Cert.Attention
open Idealize.ShloMosaic Idealize.ShloMosaic.ValueIdx

/-! ## The unit axes -/

/-- A loaded query or output block without its two unit axes. -/
theorem rows64_apply (x : S1x1x512x64.Idx → EReal) (r : Fin 512) (d : Fin 64) :
    shapeCast S512x64 x shapeCasts_S1x1x512x64_S512x64 (ix2 r d) = x (ix4 0 0 r d) :=
  shapeCast_apply x _ (ix2 r d) (ix4 0 0 r d) (by
    rw [Shape.rowMajor_val_four, Shape.rowMajor_val_two]
    show ((0 * 1 + 0) * 512 + r.val) * 64 + d.val = r.val * 64 + d.val
    omega)

/-- A loaded key block without its two unit axes. -/
theorem keys_apply (x : S1x1x64x2048.Idx → EReal) (d : Fin 64) (s : Fin 2048) :
    shapeCast S64x2048 x shapeCasts_S1x1x64x2048_S64x2048 (ix2 d s) = x (ix4 0 0 d s) :=
  shapeCast_apply x _ (ix2 d s) (ix4 0 0 d s) (by
    rw [Shape.rowMajor_val_four, Shape.rowMajor_val_two]
    show ((0 * 1 + 0) * 64 + d.val) * 2048 + s.val = d.val * 2048 + s.val
    omega)

/-- A loaded value block without its two unit axes. -/
theorem values_apply (x : S1x1x2048x64.Idx → EReal) (s : Fin 2048) (d : Fin 64) :
    shapeCast S2048x64 x shapeCasts_S1x1x2048x64_S2048x64 (ix2 s d) = x (ix4 0 0 s d) :=
  shapeCast_apply x _ (ix2 s d) (ix4 0 0 s d) (by
    rw [Shape.rowMajor_val_four, Shape.rowMajor_val_two]
    show ((0 * 1 + 0) * 2048 + s.val) * 64 + d.val = s.val * 64 + d.val
    omega)

/-- A loaded bias block without its two unit axes. -/
theorem wide_apply (x : S1x1x512x2048.Idx → EReal) (r : Fin 512) (s : Fin 2048) :
    shapeCast S512x2048 x shapeCasts_S1x1x512x2048_S512x2048 (ix2 r s) = x (ix4 0 0 r s) :=
  shapeCast_apply x _ (ix2 r s) (ix4 0 0 r s) (by
    rw [Shape.rowMajor_val_four, Shape.rowMajor_val_two]
    show ((0 * 1 + 0) * 512 + r.val) * 2048 + s.val = r.val * 2048 + s.val
    omega)

/-- A 512 × 2048 result given its two unit axes back. -/
theorem wide_back_apply (x : S512x2048.Idx → EReal) (r : Fin 512) (s : Fin 2048) :
    shapeCast S1x1x512x2048 x shapeCasts_S512x2048_S1x1x512x2048 (ix4 0 0 r s) = x (ix2 r s) :=
  shapeCast_apply x _ (ix4 0 0 r s) (ix2 r s) (by
    rw [Shape.rowMajor_val_four, Shape.rowMajor_val_two]
    show r.val * 2048 + s.val = ((0 * 1 + 0) * 512 + r.val) * 2048 + s.val
    omega)

/-- A 512 × 64 result given its two unit axes back. -/
theorem rows64_back_apply (x : S512x64.Idx → EReal) (r : Fin 512) (d : Fin 64) :
    shapeCast S1x1x512x64 x shapeCasts_S512x64_S1x1x512x64 (ix4 0 0 r d) = x (ix2 r d) :=
  shapeCast_apply x _ (ix4 0 0 r d) (ix2 r d) (by
    rw [Shape.rowMajor_val_four, Shape.rowMajor_val_two]
    show r.val * 64 + d.val = ((0 * 1 + 0) * 512 + r.val) * 64 + d.val
    omega)

/-- Per-row values laid down a column and broadcast along the key axis: every entry of row `r` is the row's value. -/
theorem along_keys_apply (y : S512.Idx → EReal) (r : Fin 512) (s : Fin 2048) :
    broadcastTo S512x2048 (shapeCast S512x1 y shapeCasts_S512_S512x1) broadcasts_S512x1_S512x2048 (ix2 r s) = y (ix1 r) := by
  refine (broadcastTo_apply _ _ (ix2 r s) (ix2 r (0 : Fin 1)) (fun a => match a with
    | ⟨0, _⟩ => by show r.val = (if (512 : Nat) = 1 then 0 else r.val); rw [if_neg (by decide)]
    | ⟨1, _⟩ => by show 0 = (if (1 : Nat) = 1 then 0 else s.val); rw [if_pos rfl])).trans ?_
  exact shapeCast_apply y _ (ix2 r (0 : Fin 1)) (ix1 r) (by
    rw [Shape.rowMajor_val_one, Shape.rowMajor_val_two]
    show r.val = r.val * 1 + 0
    omega)

/-! ## The reductions along the key axis -/

/-- Row `r` with the key position inserted. -/
theorem lift_key (h : S512x2048.Reduces [1] S512) (r : Fin 512) (s : Fin 2048) : h.lift (ix1 r) s = ix2 r s :=
  funext fun a => Fin.ext (by match a with | ⟨0, _⟩ => rfl | ⟨1, _⟩ => rfl)

/-- The row maximum: a fold of `max` over the key positions from the value of the word 0xFF800000. -/
theorem rowmax_apply (x : FVec Ideal S512x2048 .f32) (r : Fin 512) :
    multiReduction .maximumf [1] S512 x 0xFF800000#32 reduces_S512x2048_S512 (.inl rfl) rfl (ix1 r)
      = (Finset.univ : Finset (Fin 2048)).fold max start (fun s => x (ix2 r s)) := by
  refine (Ideal.multiReduction_maximumf_single x 0xFF800000#32 reduces_S512x2048_S512 (.inl rfl) rfl (ix1 r)).trans ?_
  exact congrArg (fun f => (Finset.univ : Finset (Fin 2048)).fold max start f)
    (funext fun s => congrArg x (lift_key _ r s))

/-- The row sum over the key positions. -/
theorem rowsum_apply (x : FVec Ideal S512x2048 .f32) (r : Fin 512) :
    multiReduction .add [1] S512 x 0x00000000#32 reduces_S512x2048_S512 (.inl rfl) rfl (ix1 r)
      = ∑ s : Fin 2048, x (ix2 r s) := by
  refine (Ideal.multiReduction_add_single x 0x00000000#32 reduces_S512x2048_S512 (.inl rfl) rfl (ix1 r)).trans ?_
  exact Finset.sum_congr rfl fun s _ => congrArg x (lift_key _ r s)

/-! ## The two matrix products, each into a zero accumulator: plain sums over the contracted axis

Queries against keys contract the 64 features; weights against values contract the 2048 key positions. In both the
left operand's row is the result's row, the right operand's column is the result's column, and the contracted
coordinate is the summation index. -/

theorem qk_lhs_0 (i : S512x2048.Idx) (c : dot_S512x64_S64x2048_S512x2048_1_0_0_1_n_n.contr.Idx) :
    (dot_S512x64_S64x2048_S512x2048_1_0_0_1_n_n.lhsIdx i c 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem qk_lhs_1 (i : S512x2048.Idx) (c : dot_S512x64_S64x2048_S512x2048_1_0_0_1_n_n.contr.Idx) :
    (dot_S512x64_S64x2048_S512x2048_1_0_0_1_n_n.lhsIdx i c 1).val = (c ⟨0, by decide⟩).val :=
  dot_S512x64_S64x2048_S512x2048_1_0_0_1_n_n.lhsIdx_val_of_single rfl i c
theorem qk_rhs_0 (i : S512x2048.Idx) (c : dot_S512x64_S64x2048_S512x2048_1_0_0_1_n_n.contr.Idx) :
    (dot_S512x64_S64x2048_S512x2048_1_0_0_1_n_n.rhsIdx i c 0).val = (c ⟨0, by decide⟩).val :=
  dot_S512x64_S64x2048_S512x2048_1_0_0_1_n_n.rhsIdx_val_of_single rfl i c
theorem qk_rhs_1 (i : S512x2048.Idx) (c : dot_S512x64_S64x2048_S512x2048_1_0_0_1_n_n.contr.Idx) :
    (dot_S512x64_S64x2048_S512x2048_1_0_0_1_n_n.rhsIdx i c 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- Queries against keys at (r, s): the sum over the 64 features. -/
theorem qk_apply (l : FVec Ideal S512x64 .bf16) (rt : FVec Ideal S64x2048 .bf16) (r : Fin 512) (s : Fin 2048) :
    matmul dot_S512x64_S64x2048_S512x2048_1_0_0_1_n_n none l rt (constant S512x2048 .f32 0x00000000#32) (ix2 r s)
      = ∑ d : Fin 64, l (ix2 r d) * rt (ix2 d s) := by
  simp only [matmul]
  rw [Ideal.matmul_constant_zero_apply,
    ← Equiv.sum_comp (contrEquiv1 dot_S512x64_S64x2048_S512x2048_1_0_0_1_n_n 64 rfl rfl).symm]
  refine Finset.sum_congr rfl fun d _ => ?_
  have hd := contrEquiv1_symm_val dot_S512x64_S64x2048_S512x2048_1_0_0_1_n_n 64 rfl rfl d
  have el : dot_S512x64_S64x2048_S512x2048_1_0_0_1_n_n.lhsIdx (ix2 r s)
      ((contrEquiv1 dot_S512x64_S64x2048_S512x2048_1_0_0_1_n_n 64 rfl rfl).symm d) = ix2 r d :=
    funext fun a => Fin.ext (by
      match a with
      | ⟨0, _⟩ => exact qk_lhs_0 _ _
      | ⟨1, _⟩ => exact (qk_lhs_1 _ _).trans hd)
  have er : dot_S512x64_S64x2048_S512x2048_1_0_0_1_n_n.rhsIdx (ix2 r s)
      ((contrEquiv1 dot_S512x64_S64x2048_S512x2048_1_0_0_1_n_n 64 rfl rfl).symm d) = ix2 d s :=
    funext fun a => Fin.ext (by
      match a with
      | ⟨0, _⟩ => exact (qk_rhs_0 _ _).trans hd
      | ⟨1, _⟩ => exact qk_rhs_1 _ _)
  rw [el, er]

theorem wv_lhs_0 (i : S512x64.Idx) (c : dot_S512x2048_S2048x64_S512x64_1_0_0_1_n_n.contr.Idx) :
    (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem wv_lhs_1 (i : S512x64.Idx) (c : dot_S512x2048_S2048x64_S512x64_1_0_0_1_n_n.contr.Idx) :
    (dot_S512x2048_S2048x64_S512x64_1_0_0_1_n_n.lhsIdx i c 1).val = (c ⟨0, by decide⟩).val :=
  dot_S512x2048_S2048x64_S512x64_1_0_0_1_n_n.lhsIdx_val_of_single rfl i c
theorem wv_rhs_0 (i : S512x64.Idx) (c : dot_S512x2048_S2048x64_S512x64_1_0_0_1_n_n.contr.Idx) :
    (dot_S512x2048_S2048x64_S512x64_1_0_0_1_n_n.rhsIdx i c 0).val = (c ⟨0, by decide⟩).val :=
  dot_S512x2048_S2048x64_S512x64_1_0_0_1_n_n.rhsIdx_val_of_single rfl i c
theorem wv_rhs_1 (i : S512x64.Idx) (c : dot_S512x2048_S2048x64_S512x64_1_0_0_1_n_n.contr.Idx) :
    (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Weights against values at (r, d): the sum over the 2048 key positions. -/
theorem wv_apply (l : FVec Ideal S512x2048 .bf16) (rt : FVec Ideal S2048x64 .bf16) (r : Fin 512) (d : Fin 64) :
    matmul dot_S512x2048_S2048x64_S512x64_1_0_0_1_n_n none l rt (constant S512x64 .f32 0x00000000#32) (ix2 r d)
      = ∑ s : Fin 2048, l (ix2 r s) * rt (ix2 s d) := by
  simp only [matmul]
  rw [Ideal.matmul_constant_zero_apply,
    ← Equiv.sum_comp (contrEquiv1 dot_S512x2048_S2048x64_S512x64_1_0_0_1_n_n 2048 rfl rfl).symm]
  refine Finset.sum_congr rfl fun s _ => ?_
  have hs := contrEquiv1_symm_val dot_S512x2048_S2048x64_S512x64_1_0_0_1_n_n 2048 rfl rfl s
  have el : dot_S512x2048_S2048x64_S512x64_1_0_0_1_n_n.lhsIdx (ix2 r d)
      ((contrEquiv1 dot_S512x2048_S2048x64_S512x64_1_0_0_1_n_n 2048 rfl rfl).symm s) = ix2 r s :=
    funext fun a => Fin.ext (by
      match a with
      | ⟨0, _⟩ => exact wv_lhs_0 _ _
      | ⟨1, _⟩ => exact (wv_lhs_1 _ _).trans hs)
  have er : dot_S512x2048_S2048x64_S512x64_1_0_0_1_n_n.rhsIdx (ix2 r d)
      ((contrEquiv1 dot_S512x2048_S2048x64_S512x64_1_0_0_1_n_n 2048 rfl rfl).symm s) = ix2 s d :=
    funext fun a => Fin.ext (by
      match a with
      | ⟨0, _⟩ => exact (wv_rhs_0 _ _).trans hs
      | ⟨1, _⟩ => exact wv_rhs_1 _ _)
  rw [el, er]

/-! ## The body's arithmetic on one block

Over the four loaded blocks — 512 query rows `x0`, the keys `x1`, the values `x2`, 512 rows of bias `x3` — the body
computes, for a row `r` of the block, exactly the quantities of `Cert.Attention` with the block's rows for the array's. -/

section
variable (x0 : Vec Ideal S1x1x512x64 .f32) (x1 : Vec Ideal S1x1x64x2048 .f32) (x2 : Vec Ideal S1x1x2048x64 .f32)
  (x3 : Vec Ideal S1x1x512x2048 .f32)

/-- A block's score. -/
def bscore (r : Fin 512) (s : Fin 2048) : EReal :=
  (∑ d : Fin 64, x0 (ix4 0 0 r d) * x1 (ix4 0 0 d s)) * scale + x3 (ix4 0 0 r s)
/-- A block row's largest score. -/
def btop (r : Fin 512) : EReal := (Finset.univ : Finset (Fin 2048)).fold max start (fun s => bscore x0 x1 x3 r s)
/-- A block's exponential. -/
def bunnorm (r : Fin 512) (s : Fin 2048) : EReal := Ideal.exp (bscore x0 x1 x3 r s - btop x0 x1 x3 r)
/-- A block row's total. -/
def bmass (r : Fin 512) : EReal := ∑ s : Fin 2048, bunnorm x0 x1 x3 r s
/-- A block's weight. -/
def bweight (r : Fin 512) (s : Fin 2048) : EReal := Ideal.div (bunnorm x0 x1 x3 r s) (bmass x0 x1 x3 r)
/-- A block's mixture. -/
def bmix (r : Fin 512) (d : Fin 64) : EReal := ∑ s : Fin 2048, bweight x0 x1 x3 r s * x2 (ix4 0 0 s d)

/-- The score payload at (r, s). -/
theorem pay2_apply (r : Fin 512) (s : Fin 2048) :
    k0_pay2 (F := Ideal) x0 x1 x3 (ix2 r s) = bscore x0 x1 x3 r s := by
  unfold k0_pay2
  rw [addf_apply, mulf_apply, broadcast_apply, qk_apply, wide_apply]
  simp only [truncf_apply, rows64_apply, keys_apply]
  rfl

/-- The exponentials the body forms from the score payload, at (r, s). -/
theorem exps_apply (r : Fin 512) (s : Fin 2048) :
    exp (subf (k0_pay2 (F := Ideal) x0 x1 x3) (broadcastTo S512x2048 (shapeCast S512x1
      (multiReduction .maximumf [1] S512 (k0_pay2 (F := Ideal) x0 x1 x3) 0xFF800000#32 reduces_S512x2048_S512 (.inl rfl) rfl)
      shapeCasts_S512_S512x1) broadcasts_S512x1_S512x2048)) (ix2 r s) = bunnorm x0 x1 x3 r s := by
  show Ideal.exp (k0_pay2 (F := Ideal) x0 x1 x3 (ix2 r s) - broadcastTo S512x2048 (shapeCast S512x1
      (multiReduction .maximumf [1] S512 (k0_pay2 (F := Ideal) x0 x1 x3) 0xFF800000#32 reduces_S512x2048_S512 (.inl rfl) rfl)
      shapeCasts_S512_S512x1) broadcasts_S512x1_S512x2048 (ix2 r s)) = _
  rw [along_keys_apply, rowmax_apply, pay2_apply]
  simp only [pay2_apply]
  rfl

/-- The weight payload at (r, s). -/
theorem pay4_apply (r : Fin 512) (s : Fin 2048) :
    k0_pay4 (F := Ideal) x0 x1 x3 (ix2 r s) = bweight x0 x1 x3 r s := by
  unfold k0_pay4
  rw [divf_apply, along_keys_apply, rowsum_apply, exps_apply]
  exact congrArg (Ideal.div (bunnorm x0 x1 x3 r s))
    (Finset.sum_congr rfl fun s' _ => exps_apply x0 x1 x3 r s')

/-- The stored score block at (0, 0, r, s). -/
theorem pay3_apply (r : Fin 512) (s : Fin 2048) :
    k0_pay3 (F := Ideal) x0 x1 x3 (ix4 0 0 r s) = bscore x0 x1 x3 r s := by
  unfold k0_pay3
  rw [wide_back_apply, pay2_apply]

/-- The stored weight block at (0, 0, r, s). -/
theorem pay5_apply (r : Fin 512) (s : Fin 2048) :
    k0_pay5 (F := Ideal) x0 x1 x3 (ix4 0 0 r s) = bweight x0 x1 x3 r s := by
  unfold k0_pay5
  rw [wide_back_apply, pay4_apply]

/-- The stored output block at (0, 0, r, d), from the weight payload and the values. -/
theorem pay1_apply (r : Fin 512) (d : Fin 64) :
    k0_pay1 (F := Ideal) (k0_pay4 (F := Ideal) x0 x1 x3) x2 (ix4 0 0 r d) = bmix x0 x1 x2 x3 r d := by
  unfold k0_pay1
  rw [rows64_back_apply, wv_apply]
  simp only [truncf_apply, values_apply, pay4_apply]
  rfl

/-- A block index of the 512 × 2048 results: its two unit coordinates are zero. -/
theorem wide_idx (j : S1x1x512x2048.Idx) : j = ix4 0 0 (j 2) (j 3) :=
  funext fun a => by
    match a with
    | ⟨0, _⟩ => exact Subsingleton.elim (α := Fin 1) _ _
    | ⟨1, _⟩ => exact Subsingleton.elim (α := Fin 1) _ _
    | ⟨2, _⟩ => rfl
    | ⟨3, _⟩ => rfl

/-- A block index of the 512 × 64 result: its two unit coordinates are zero. -/
theorem rows64_idx (j : S1x1x512x64.Idx) : j = ix4 0 0 (j 2) (j 3) :=
  funext fun a => by
    match a with
    | ⟨0, _⟩ => exact Subsingleton.elim (α := Fin 1) _ _
    | ⟨1, _⟩ => exact Subsingleton.elim (α := Fin 1) _ _
    | ⟨2, _⟩ => rfl
    | ⟨3, _⟩ => rfl

/-- The stored score block at any of its indices. -/
theorem pay3_at (j : S1x1x512x2048.Idx) : k0_pay3 (F := Ideal) x0 x1 x3 j = bscore x0 x1 x3 (j 2) (j 3) :=
  (congrArg (k0_pay3 (F := Ideal) x0 x1 x3) (wide_idx j)).trans (pay3_apply x0 x1 x3 (j 2) (j 3))

/-- The stored weight block at any of its indices. -/
theorem pay5_at (j : S1x1x512x2048.Idx) : k0_pay5 (F := Ideal) x0 x1 x3 j = bweight x0 x1 x3 (j 2) (j 3) :=
  (congrArg (k0_pay5 (F := Ideal) x0 x1 x3) (wide_idx j)).trans (pay5_apply x0 x1 x3 (j 2) (j 3))

/-- The stored output block at any of its indices. -/
theorem pay1_at (j : S1x1x512x64.Idx) :
    k0_pay1 (F := Ideal) (k0_pay4 (F := Ideal) x0 x1 x3) x2 j = bmix x0 x1 x2 x3 (j 2) (j 3) :=
  (congrArg (k0_pay1 (F := Ideal) (k0_pay4 (F := Ideal) x0 x1 x3) x2) (rows64_idx j)).trans
    (pay1_apply x0 x1 x2 x3 (j 2) (j 3))

end

/-! ## A block against the arrays

Grid point (b, h, n) works on query rows `n · 512 + r` of pair (b, h). When the four loaded blocks are those rows of the
queries and the bias and the whole of the pair's keys and values, every block quantity is the array's at that row: a
row's maximum, total and mixture range over all 2048 key positions, and the block holds them all. -/

/-- The array row of a block row. -/
def row (n : Fin 4) (r : Fin 512) : Fin 2048 := ⟨n.val * 512 + r.val, by have := n.isLt; have := r.isLt; omega⟩

section
variable (q : QShape.Idx → EReal) (k : KShape.Idx → EReal) (v : QShape.Idx → EReal) (bias : PShape.Idx → EReal)
variable (x0 : Vec Ideal S1x1x512x64 .f32) (x1 : Vec Ideal S1x1x64x2048 .f32) (x2 : Vec Ideal S1x1x2048x64 .f32)
  (x3 : Vec Ideal S1x1x512x2048 .f32)
variable (b : Fin 2) (h : Fin 16) (n : Fin 4)
variable (h0 : ∀ (r : Fin 512) (d : Fin 64), x0 (ix4 0 0 r d) = q (ix4 b h (row n r) d))
  (h1 : ∀ (d : Fin 64) (s : Fin 2048), x1 (ix4 0 0 d s) = k (ix4 b h d s))
  (h2 : ∀ (s : Fin 2048) (d : Fin 64), x2 (ix4 0 0 s d) = v (ix4 b h s d))
  (h3 : ∀ (r : Fin 512) (s : Fin 2048), x3 (ix4 0 0 r s) = bias (ix4 b h (row n r) s))
include h0 h1 h3

theorem bscore_eq (r : Fin 512) (s : Fin 2048) : bscore x0 x1 x3 r s = score q k bias b h (row n r) s := by
  unfold bscore score
  simp only [h0, h1, h3]

theorem btop_eq (r : Fin 512) : btop x0 x1 x3 r = top q k bias b h (row n r) := by
  unfold btop top
  simp only [bscore_eq q k bias x0 x1 x3 b h n h0 h1 h3]

theorem bunnorm_eq (r : Fin 512) (s : Fin 2048) : bunnorm x0 x1 x3 r s = unnorm q k bias b h (row n r) s := by
  unfold bunnorm unnorm
  rw [bscore_eq q k bias x0 x1 x3 b h n h0 h1 h3, btop_eq q k bias x0 x1 x3 b h n h0 h1 h3]

theorem bmass_eq (r : Fin 512) : bmass x0 x1 x3 r = mass q k bias b h (row n r) := by
  unfold bmass mass
  simp only [bunnorm_eq q k bias x0 x1 x3 b h n h0 h1 h3]

theorem bweight_eq (r : Fin 512) (s : Fin 2048) : bweight x0 x1 x3 r s = weight q k bias b h (row n r) s := by
  unfold bweight weight
  rw [bunnorm_eq q k bias x0 x1 x3 b h n h0 h1 h3, bmass_eq q k bias x0 x1 x3 b h n h0 h1 h3]

include h2 in
theorem bmix_eq (r : Fin 512) (d : Fin 64) : bmix x0 x1 x2 x3 r d = mix q k v bias b h (row n r) d := by
  unfold bmix mix
  simp only [bweight_eq q k bias x0 x1 x3 b h n h0 h1 h3, h2]

end

end Cert.KernelBlock

end
-- ==== Proof.KernelAttention.lean ====
/-
  The kernel computes attention: after its run the three output arrays are the mixtures, the weights and the scores of
  `Cert.Attention` of the argument arrays.

  The grid has one point per (batch, head, quarter of the query rows). At point (b, h, n) the query and bias windows hold
  rows n · 512 … n · 512 + 511 of pair (b, h), the key and value windows the pair's whole arrays, and the three output
  windows write back the same rows of their arrays. So what a point writes back is a block of the specification
  (`Cert.KernelBlock`: the body's arithmetic on such blocks is the array's at those rows), and since every (b, h, n) is
  some point's, the blocks fill each output array.
-/
import proofs.«422906_j22634477650274_3_alg».proof.Proof.Gen.KernelIdeal.Value
import proofs.«422906_j22634477650274_3_alg».proof.Proof.KernelBlock

set_option maxRecDepth 16384

noncomputable section

namespace Cert.KernelAttention

open Cert.KernelIdeal Cert.KernelIdeal.Gen Cert.Attention Cert.KernelBlock
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The argument arrays as the region finds them. -/
abbrev qArr (c : Dev nD) : QShape.Idx → EReal := V m c main_arg0
abbrev kArr (c : Dev nD) : KShape.Idx → EReal := V m c main_arg1
abbrev vArr (c : Dev nD) : QShape.Idx → EReal := V m c main_arg2
abbrev biasArr (c : Dev nD) : PShape.Idx → EReal := V m c main_arg3

theorem origin : (![0, 0, 0, 0] : Fin 4 → Nat) = fun _ => 0 := funext fun a => by fin_cases a <;> rfl

/-! ## The index maps, decided over the 128 grid points -/

/-- Every window's block index at a point, against the score window's: the same (batch, head), the same quarter for the
    windows cut along the query rows and block 0 for the keys and values, block 0 along the last axis everywhere. -/
theorem maps : ∀ t : Fin cfg0.N,
    win0_5.index t (0 : Fin 4) ≤ 1 ∧ win0_5.index t (1 : Fin 4) ≤ 15 ∧ win0_5.index t (2 : Fin 4) ≤ 3 ∧ win0_5.index t (3 : Fin 4) = 0
    ∧ win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0
    ∧ win0_3.index t (0 : Fin 4) = win0_5.index t (0 : Fin 4) ∧ win0_3.index t (1 : Fin 4) = win0_5.index t (1 : Fin 4)
      ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0
    ∧ win0_6.index t (0 : Fin 4) = win0_5.index t (0 : Fin 4) ∧ win0_6.index t (1 : Fin 4) = win0_5.index t (1 : Fin 4)
      ∧ win0_6.index t (2 : Fin 4) = win0_5.index t (2 : Fin 4) ∧ win0_6.index t (3 : Fin 4) = 0 :=
  (by decide +kernel : ∀ t : Fin grid0.N, _)

/-- Every (batch, head, quarter) is some point's. -/
theorem onto : ∀ (b : Fin 2) (h : Fin 16) (n : Fin 4), ∃ t : Fin cfg0.N, win0_5.index t = ![b.val, h.val, n.val, 0] :=
  (by decide +kernel : ∀ (b : Fin 2) (h : Fin 16) (n : Fin 4), ∃ t : Fin grid0.N, win0_5.index t = ![b.val, h.val, n.val, 0])

/-- A point's batch, head and quarter. -/
def batchAt (t : Fin cfg0.N) : Fin 2 := ⟨win0_5.index t (0 : Fin 4), by have := (maps t).1; omega⟩
def headAt (t : Fin cfg0.N) : Fin 16 := ⟨win0_5.index t (1 : Fin 4), by have := (maps t).2.1; omega⟩
def quarterAt (t : Fin cfg0.N) : Fin 4 := ⟨win0_5.index t (2 : Fin 4), by have := (maps t).2.2.1; omega⟩

/-! ## The windows' blocks at a point are rows of the arrays -/

/-- The query block at point `t`: rows `quarter · 512 + r` of the point's (batch, head). -/
theorem q_block (c : Dev nD) (t : Fin cfg0.N) (r : Fin 512) (d : Fin 64) :
    iblk m c 0 t (ix4 0 0 r d) = qArr m c (ix4 (batchAt t) (headAt t) (row (quarterAt t) r) d) := by
  obtain ⟨_, _, _, _, a0, a1, a2, a3, _⟩ := maps t
  show V m c main_arg0 (((cfg0.win 0).blk t).view.emb (ix4 0 0 r d)) = _
  refine congrArg (V m c main_arg0) (funext fun a => Fin.ext ?_)
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 512 + 1 * r.val = win0_5.index t (2 : Fin 4) * 512 + r.val; omega
  | ⟨3, _⟩ => show win0_0.index t (3 : Fin 4) * 64 + 1 * d.val = d.val; omega

/-- The key block at point `t`: the whole key array of the point's (batch, head). -/
theorem k_block (c : Dev nD) (t : Fin cfg0.N) (d : Fin 64) (s : Fin 2048) :
    iblk m c 1 t (ix4 0 0 d s) = kArr m c (ix4 (batchAt t) (headAt t) d s) := by
  obtain ⟨_, _, _, _, _, _, _, _, a0, a1, a2, a3, _⟩ := maps t
  show V m c main_arg1 (((cfg0.win 1).blk t).view.emb (ix4 0 0 d s)) = _
  refine congrArg (V m c main_arg1) (funext fun a => Fin.ext ?_)
  match a with
  | ⟨0, _⟩ => show win0_1.index t (0 : Fin 4) * 1 + 1 * 0 = win0_5.index t (0 : Fin 4); omega
  | ⟨1, _⟩ => show win0_1.index t (1 : Fin 4) * 1 + 1 * 0 = win0_5.index t (1 : Fin 4); omega
  | ⟨2, _⟩ => show win0_1.index t (2 : Fin 4) * 64 + 1 * d.val = d.val; omega
  | ⟨3, _⟩ => show win0_1.index t (3 : Fin 4) * 2048 + 1 * s.val = s.val; omega

/-- The value block at point `t`: the whole value array of the point's (batch, head). -/
theorem v_block (c : Dev nD) (t : Fin cfg0.N) (s : Fin 2048) (d : Fin 64) :
    iblk m c 2 t (ix4 0 0 s d) = vArr m c (ix4 (batchAt t) (headAt t) s d) := by
  obtain ⟨_, _, _, _, _, _, _, _, _, _, _, _, a0, a1, a2, a3, _⟩ := maps t
  show V m c main_arg2 (((cfg0.win 2).blk t).view.emb (ix4 0 0 s d)) = _
  refine congrArg (V m c main_arg2) (funext fun a => Fin.ext ?_)
  match a with
  | ⟨0, _⟩ => show win0_2.index t (0 : Fin 4) * 1 + 1 * 0 = win0_5.index t (0 : Fin 4); omega
  | ⟨1, _⟩ => show win0_2.index t (1 : Fin 4) * 1 + 1 * 0 = win0_5.index t (1 : Fin 4); omega
  | ⟨2, _⟩ => show win0_2.index t (2 : Fin 4) * 2048 + 1 * s.val = s.val; omega
  | ⟨3, _⟩ => show win0_2.index t (3 : Fin 4) * 64 + 1 * d.val = d.val; omega

/-- The bias block at point `t`: rows `quarter · 512 + r` of the point's (batch, head). -/
theorem bias_block (c : Dev nD) (t : Fin cfg0.N) (r : Fin 512) (s : Fin 2048) :
    iblk m c 3 t (ix4 0 0 r s) = biasArr m c (ix4 (batchAt t) (headAt t) (row (quarterAt t) r) s) := by
  obtain ⟨_, _, _, _, _, _, _, _, _, _, _, _, _, _, _, _, a0, a1, a2, a3, _⟩ := maps t
  show V m c main_arg3 (((cfg0.win 3).blk t).view.emb (ix4 0 0 r s)) = _
  refine congrArg (V m c main_arg3) (funext fun a => Fin.ext ?_)
  match a with
  | ⟨0, _⟩ => show win0_3.index t (0 : Fin 4) * 1 + 1 * 0 = win0_5.index t (0 : Fin 4); omega
  | ⟨1, _⟩ => show win0_3.index t (1 : Fin 4) * 1 + 1 * 0 = win0_5.index t (1 : Fin 4); omega
  | ⟨2, _⟩ => show win0_3.index t (2 : Fin 4) * 512 + 1 * r.val = win0_5.index t (2 : Fin 4) * 512 + r.val; omega
  | ⟨3, _⟩ => show win0_3.index t (3 : Fin 4) * 2048 + 1 * s.val = s.val; omega

/-! ## What a point writes back is a block of the specification -/

/-- Where the score window's block index `j` at point `t` lies in its array. -/
theorem emb_wide5 (t : Fin cfg0.N) (j : ((cfg0.win 5).xblock (cfg0.grid.coords t)).Idx) :
    ((cfg0.win 5).blk t).view.emb j = ix4 (batchAt t) (headAt t) (row (quarterAt t) (j 2)) (j 3) := by
  obtain ⟨_, _, _, e3, _⟩ := maps t
  have h0 : (j 0).val < 1 := (j 0).isLt
  have h1 : (j 1).val < 1 := (j 1).isLt
  funext a; apply Fin.ext
  match a with
  | ⟨0, _⟩ => show win0_5.index t (0 : Fin 4) * 1 + 1 * (j 0).val = win0_5.index t (0 : Fin 4); omega
  | ⟨1, _⟩ => show win0_5.index t (1 : Fin 4) * 1 + 1 * (j 1).val = win0_5.index t (1 : Fin 4); omega
  | ⟨2, _⟩ => show win0_5.index t (2 : Fin 4) * 512 + 1 * (j 2).val = win0_5.index t (2 : Fin 4) * 512 + (j 2).val; omega
  | ⟨3, _⟩ => show win0_5.index t (3 : Fin 4) * 2048 + 1 * (j 3).val = (j 3).val; omega

/-- The same for the weight window. -/
theorem emb_wide6 (t : Fin cfg0.N) (j : ((cfg0.win 6).xblock (cfg0.grid.coords t)).Idx) :
    ((cfg0.win 6).blk t).view.emb j = ix4 (batchAt t) (headAt t) (row (quarterAt t) (j 2)) (j 3) := by
  obtain ⟨_, _, _, _, _, _, _, _, _, _, _, _, _, _, _, _, _, _, _, _, _, _, _, _, a0, a1, a2, a3⟩ := maps t
  have h0 : (j 0).val < 1 := (j 0).isLt
  have h1 : (j 1).val < 1 := (j 1).isLt
  funext a; apply Fin.ext
  match a with
  | ⟨0, _⟩ => show win0_6.index t (0 : Fin 4) * 1 + 1 * (j 0).val = win0_5.index t (0 : Fin 4); omega
  | ⟨1, _⟩ => show win0_6.index t (1 : Fin 4) * 1 + 1 * (j 1).val = win0_5.index t (1 : Fin 4); omega
  | ⟨2, _⟩ => show win0_6.index t (2 : Fin 4) * 512 + 1 * (j 2).val = win0_5.index t (2 : Fin 4) * 512 + (j 2).val; omega
  | ⟨3, _⟩ => show win0_6.index t (3 : Fin 4) * 2048 + 1 * (j 3).val = (j 3).val; omega

/-- The same for the output window, whose last axis is the 64 features. -/
theorem emb_out4 (t : Fin cfg0.N) (j : ((cfg0.win 4).xblock (cfg0.grid.coords t)).Idx) :
    ((cfg0.win 4).blk t).view.emb j = ix4 (batchAt t) (headAt t) (row (quarterAt t) (j 2)) (j 3) := by
  obtain ⟨_, _, _, _, _, _, _, _, _, _, _, _, _, _, _, _, _, _, _, _, a0, a1, a2, a3, _⟩ := maps t
  have h0 : (j 0).val < 1 := (j 0).isLt
  have h1 : (j 1).val < 1 := (j 1).isLt
  funext a; apply Fin.ext
  match a with
  | ⟨0, _⟩ => show win0_4.index t (0 : Fin 4) * 1 + 1 * (j 0).val = win0_5.index t (0 : Fin 4); omega
  | ⟨1, _⟩ => show win0_4.index t (1 : Fin 4) * 1 + 1 * (j 1).val = win0_5.index t (1 : Fin 4); omega
  | ⟨2, _⟩ => show win0_4.index t (2 : Fin 4) * 512 + 1 * (j 2).val = win0_5.index t (2 : Fin 4) * 512 + (j 2).val; omega
  | ⟨3, _⟩ => show win0_4.index t (3 : Fin 4) * 64 + 1 * (j 3).val = (j 3).val; omega

/-- Point `t` writes back its block of the scores. -/
theorem flushed_scores (c : Dev nD) (t : Fin cfg0.N) :
    (dats m 0 c).flushed 5 t
      = ((cfg0.win 5).blk t).view.read (Elt Ideal) (scores (qArr m c) (kArr m c) (biasArr m c)) := by
  rw [Cert.KernelIdeal.Value.flushed5]
  unfold out0_5
  rw [View.canon_unit_zero origin]
  simp only [View.ld_unit_zero (S := S1x1x512x64) origin, View.ld_unit_zero (S := S1x1x64x2048) origin,
    View.ld_unit_zero (S := S1x1x512x2048) origin]
  funext j
  show k0_pay3 (F := Ideal) (iblk m c 0 t) (iblk m c 1 t) (iblk m c 3 t) j
    = scores (qArr m c) (kArr m c) (biasArr m c) (((cfg0.win 5).blk t).view.emb j)
  refine (pay3_at (iblk m c 0 t) (iblk m c 1 t) (iblk m c 3 t) j).trans ?_
  refine (bscore_eq (qArr m c) (kArr m c) (biasArr m c) (iblk m c 0 t) (iblk m c 1 t) (iblk m c 3 t)
    (batchAt t) (headAt t) (quarterAt t) (q_block m c t) (k_block m c t) (bias_block m c t) (j 2) (j 3)).trans ?_
  exact (congrArg (scores (qArr m c) (kArr m c) (biasArr m c)) (emb_wide5 t j)).symm

/-- Point `t` writes back its block of the weights. -/
theorem flushed_weights (c : Dev nD) (t : Fin cfg0.N) :
    (dats m 0 c).flushed 6 t
      = ((cfg0.win 6).blk t).view.read (Elt Ideal) (weights (qArr m c) (kArr m c) (biasArr m c)) := by
  rw [Cert.KernelIdeal.Value.flushed6]
  unfold out0_6
  rw [View.canon_unit_zero origin]
  simp only [View.ld_unit_zero (S := S1x1x512x64) origin, View.ld_unit_zero (S := S1x1x64x2048) origin,
    View.ld_unit_zero (S := S1x1x512x2048) origin]
  funext j
  show k0_pay5 (F := Ideal) (iblk m c 0 t) (iblk m c 1 t) (iblk m c 3 t) j
    = weights (qArr m c) (kArr m c) (biasArr m c) (((cfg0.win 6).blk t).view.emb j)
  refine (pay5_at (iblk m c 0 t) (iblk m c 1 t) (iblk m c 3 t) j).trans ?_
  refine (bweight_eq (qArr m c) (kArr m c) (biasArr m c) (iblk m c 0 t) (iblk m c 1 t) (iblk m c 3 t)
    (batchAt t) (headAt t) (quarterAt t) (q_block m c t) (k_block m c t) (bias_block m c t) (j 2) (j 3)).trans ?_
  exact (congrArg (weights (qArr m c) (kArr m c) (biasArr m c)) (emb_wide6 t j)).symm

/-- Point `t` writes back its block of the mixtures. -/
theorem flushed_output (c : Dev nD) (t : Fin cfg0.N) :
    (dats m 0 c).flushed 4 t
      = ((cfg0.win 4).blk t).view.read (Elt Ideal) (output (qArr m c) (kArr m c) (vArr m c) (biasArr m c)) := by
  rw [Cert.KernelIdeal.Value.flushed4]
  unfold out0_4
  rw [View.canon_unit_zero origin]
  simp only [View.ld_unit_zero (S := S1x1x512x64) origin, View.ld_unit_zero (S := S1x1x64x2048) origin,
    View.ld_unit_zero (S := S1x1x512x2048) origin, View.ld_unit_zero (S := S1x1x2048x64) origin]
  funext j
  show k0_pay1 (F := Ideal) (k0_pay4 (F := Ideal) (iblk m c 0 t) (iblk m c 1 t) (iblk m c 3 t)) (iblk m c 2 t) j
    = output (qArr m c) (kArr m c) (vArr m c) (biasArr m c) (((cfg0.win 4).blk t).view.emb j)
  refine (pay1_at (iblk m c 0 t) (iblk m c 1 t) (iblk m c 2 t) (iblk m c 3 t) j).trans ?_
  refine (bmix_eq (qArr m c) (kArr m c) (vArr m c) (biasArr m c) (iblk m c 0 t) (iblk m c 1 t) (iblk m c 2 t)
    (iblk m c 3 t) (batchAt t) (headAt t) (quarterAt t) (q_block m c t) (k_block m c t) (v_block m c t)
    (bias_block m c t) (j 2) (j 3)).trans ?_
  exact (congrArg (output (qArr m c) (kArr m c) (vArr m c) (biasArr m c)) (emb_out4 t j)).symm

/-! ## The blocks fill the output arrays -/

/-- An index of the score array is in point `t`'s block iff each coordinate is in the block's range on its axis. -/
theorem mem_blk5 (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- The same for the weight array. -/
theorem mem_blk6 (t : Fin cfg0.N) (i : S2x16x2048x2048.Idx) :
    i ∈ ((cfg0.win 6).blk t).view.set ↔ ∀ a : Fin 4, win0_6.index t a * S1x1x512x2048.size a ≤ (i a).val
      ∧ (i a).val < win0_6.index t a * S1x1x512x2048.size a + S1x1x512x2048.size a := by
  show i ∈ ((View.whole main_v0_2).slice (win0_6.rect t)).set ↔ _
  rw [View.set_slice_whole, Rect.mem_set_unit]
  exact Iff.rfl

/-- The same for the output array. -/
theorem mem_blk4 (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every index of the score array is in the block of the point of its (batch, head, quarter of the rows). -/
theorem cover_scores (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- The same for the weight array. -/
theorem cover_weights (i : S2x16x2048x2048.Idx) :
    ∃ t : Fin cfg0.N, (cfg0.win 6).flush t = true ∧ i ∈ ((cfg0.win 6).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  obtain ⟨_, _, _, _, _, _, _, _, _, _, _, _, _, _, _, _, _, _, _, _, _, _, _, _, a0, a1, a2, a3⟩ := maps t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 512 ≤ (i 2).val ∧ (i 2).val < win0_6.index t (2 : Fin 4) * 512 + 512; omega
  | ⟨3, _⟩ => show win0_6.index t (3 : Fin 4) * 2048 ≤ (i 3).val ∧ (i 3).val < win0_6.index t (3 : Fin 4) * 2048 + 2048; omega

/-- The same for the output array. -/
theorem cover_output (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  obtain ⟨_, _, _, _, _, _, _, _, _, _, _, _, _, _, _, _, _, _, _, _, a0, a1, a2, a3, _⟩ := maps t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

theorem final_scores (c : Dev nD) :
    (dats m 0 c).arrAt 5 cfg0.N = scores (qArr m c) (kArr m c) (biasArr m c) :=
  (dats m 0 c).arrAt_eq_of_cover 5 _ (fun t _ => flushed_scores m c t) cover_scores

theorem final_weights (c : Dev nD) :
    (dats m 0 c).arrAt 6 cfg0.N = weights (qArr m c) (kArr m c) (biasArr m c) :=
  (dats m 0 c).arrAt_eq_of_cover 6 _ (fun t _ => flushed_weights m c t) cover_weights

theorem final_output (c : Dev nD) :
    (dats m 0 c).arrAt 4 cfg0.N = output (qArr m c) (kArr m c) (vArr m c) (biasArr m c) :=
  (dats m 0 c).arrAt_eq_of_cover 4 _ (fun t _ => flushed_output m c t) cover_output

/-- The kernel's run: the mixtures, the weights and the scores of the argument arrays, the arguments unchanged. -/
theorem run : θ_run defs (onTc (τ := τ) (main (F := Ideal))) ⟨m, fun _ => 0, ρ⟩ fun r => ∀ c : Dev nD,
      r.2.mem ((c : Thread nD τ).loc main_v0_0) = output (qArr m c) (kArr m c) (vArr m c) (biasArr m c)
      ∧ r.2.mem ((c : Thread nD τ).loc main_v0_2) = weights (qArr m c) (kArr m c) (biasArr m c)
      ∧ r.2.mem ((c : Thread nD τ).loc main_v0_1) = scores (qArr m c) (kArr m c) (biasArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_output m c),
      (h c).2.2.1.trans (final_weights m c),
      (h c).2.1.trans (final_scores m c),
      (h c).2.2.2⟩)
    (Cert.KernelIdeal.Value.run_blocks m ρ)

end Cert.KernelAttention

end
-- ==== Proof.lean ====
/-
  Scaled dot-product attention with an additive bias, tiled over the query rows, against its plain form.

  Both programs take queries q[b,h,r,d], keys stored transposed k[b,h,d,s], values v[b,h,s,d] and a bias
  prev[b,h,r,s], and return three arrays: for every (batch, head) and query row r,
    score r s  = (∑ d, q r d · k d s) · (1/8) + prev r s,
    weight r s = exp (score r s − max over s of score r ·) / ∑ s, exp (score r s − max …),
    mix r d    = ∑ s, weight r s · v s d.
  The kernel does this for 512 query rows at a grid point, holding the pair's whole key and value arrays; the reference
  does it for all rows at once. On the extended reals the two are the same function entry by entry: a change of float
  format is the identity, a matrix product into a zero accumulator and the host's contraction are the same sum, a lane
  reduction and the host's reduction range over the same key positions in one row, and the reference's extra maximum
  with −∞ is absorbed by the order. Nothing here needs the entries to be finite.

  `Cert.Attention` states the three arrays index by index; `Cert.RefAttention` reads the reference's stages as them;
  `Cert.KernelBlock` reads the kernel's body on one block and sets a block beside the arrays' rows;
  `Cert.KernelAttention` fills the output arrays from the blocks. The three frames are the generated ones; the
  idealization rewrote nothing, so there is nothing to preserve.
-/
import proofs.«422906_j22634477650274_3_alg».proof.Defs
import proofs.«422906_j22634477650274_3_alg».proof.Proof.Gen.Kernel
import proofs.«422906_j22634477650274_3_alg».proof.Proof.Gen.Kernel.Skeleton
import proofs.«422906_j22634477650274_3_alg».proof.Proof.Gen.Kernel.Launch
import proofs.«422906_j22634477650274_3_alg».proof.Proof.Gen.Kernel.Points
import proofs.«422906_j22634477650274_3_alg».proof.Proof.Gen.Kernel.Frame
import proofs.«422906_j22634477650274_3_alg».proof.Proof.Gen.KernelIdeal
import proofs.«422906_j22634477650274_3_alg».proof.Proof.Gen.KernelIdeal.Skeleton
import proofs.«422906_j22634477650274_3_alg».proof.Proof.Gen.KernelIdeal.Launch
import proofs.«422906_j22634477650274_3_alg».proof.Proof.Gen.KernelIdeal.Points
import proofs.«422906_j22634477650274_3_alg».proof.Proof.Gen.KernelIdeal.Frame
import proofs.«422906_j22634477650274_3_alg».proof.Proof.Gen.ReferenceIdeal
import proofs.«422906_j22634477650274_3_alg».proof.Proof.Gen.Pre_finite_inputs
import proofs.«422906_j22634477650274_3_alg».proof.Proof.Gen.KernelIdeal.Value
import proofs.«422906_j22634477650274_3_alg».proof.Proof.Gen.ReferenceIdeal.Run
import proofs.«422906_j22634477650274_3_alg».proof.Proof.Gen.ReferenceIdeal.Read
import proofs.«422906_j22634477650274_3_alg».proof.Proof.RefAttention
import proofs.«422906_j22634477650274_3_alg».proof.Proof.KernelAttention
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its results dropped: it terminates and leaves its arguments as they were. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- Both runs end with the mixtures, the weights and the scores of the argument arrays, on which the two memories
    agree. -/
theorem algebraic : Cert.algebraic_KernelIdeal_ReferenceIdeal := by
  intro m ρ m' ρ' _ hagree
  refine ⟨_, _, _, Cert.KernelAttention.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v15_eq, Cert.RefAttention.output_eq,
      (hagree c).1, (hagree c).2.1, (hagree c).2.2.1, (hagree c).2.2.2]
  · rw [Cert.ReferenceIdeal.Read.val_main_v14_eq, Cert.RefAttention.weights_eq,
      (hagree c).1, (hagree c).2.1, (hagree c).2.2.2]
  · rw [Cert.ReferenceIdeal.Read.val_main_v3_eq, Cert.RefAttention.scores_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
